-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x3 : Shape := ⟨2, ![8192, 3]⟩
abbrev S_ : Shape := ⟨0, ![]⟩

class Facts : Prop where
  bcast_S_S8192x3 : S_.BroadcastsInDim S8192x3 (![] : Fin 0 → Fin S8192x3.rank)
  reducesTo_S8192x3_S_d0_1 : S8192x3.ReducesTo [0, 1] S_
  h_S_ : 0 < S_.numel

variable [Facts]

def fn {F : FTy → Type} [FloatOps F] (main_arg0 : FVec F S8192x3 .f32) (main_arg1 : FVec F S8192x3 .f32) : IVec S_ 1 :=
  let main_v0 : FVec F S8192x3 .f32 := Host.absf main_arg0
  let main_cst : FVec F S_ .f32 := constant S_ .f32 0x7F800000#32
  let main_v1 : FVec F S8192x3 .f32 := broadcastInDim S8192x3 ![] bcast_S_S8192x3 main_cst
  let main_v2 : IVec S8192x3 1 := cmpf .olt main_v0 main_v1
  let main_c : IVec S_ 1 := constantI S_ 1 1#1
  let main_v3 : IVec S_ 1 := (fun x v => Host.reduce IntOp.andi x v reducesTo_S8192x3_S_d0_1 h_S_) main_v2 main_c
  let main_v4 : FVec F S8192x3 .f32 := Host.absf main_arg1
  let main_cst_0 : FVec F S_ .f32 := constant S_ .f32 0x7F800000#32
  let main_v5 : FVec F S8192x3 .f32 := broadcastInDim S8192x3 ![] bcast_S_S8192x3 main_cst_0
  let main_v6 : IVec S8192x3 1 := cmpf .olt main_v4 main_v5
  let main_c_1 : IVec S_ 1 := constantI S_ 1 1#1
  let main_v7 : IVec S_ 1 := (fun x v => Host.reduce IntOp.andi x v reducesTo_S8192x3_S_d0_1 h_S_) main_v6 main_c_1
  let main_v8 : IVec S_ 1 := andi main_v3 main_v7
  main_v8
-- ==== Kernel.lean ====
abbrev S8192x3 : Shape := ⟨2, ![8192, 3]⟩
abbrev S8192x1 : Shape := ⟨2, ![8192, 1]⟩
abbrev S1x8192 : Shape := ⟨2, ![1, 8192]⟩
abbrev S256x3 : Shape := ⟨2, ![256, 3]⟩
abbrev S256x1 : Shape := ⟨2, ![256, 1]⟩
abbrev S3x8192 : Shape := ⟨2, ![3, 8192]⟩
abbrev S8192 : Shape := ⟨1, ![8192]⟩
abbrev S256 : Shape := ⟨1, ![256]⟩
abbrev S256x8192 : Shape := ⟨2, ![256, 8192]⟩
abbrev S_ : Shape := ⟨0, ![]⟩

abbrev nBuf : Space → Nat
  | .hbm => 13
  | .vmem => 7
  | .smem => 0
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S8192x1, .f32⟩
  | .hbm, ⟨3, _⟩ => ⟨S1x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S256x3, .f32⟩
  | .local _ .vmem, ⟨1, _⟩ => ⟨S256x3, .f32⟩
  | .local _ .vmem, ⟨2, _⟩ => ⟨S8192x3, .f32⟩
  | .local _ .vmem, ⟨3, _⟩ => ⟨S256x1, .f32⟩
  | .local _ .vmem, ⟨4, _⟩ => ⟨S256x1, .f32⟩
  | .local _ .vmem, ⟨5, _⟩ => ⟨S1x8192, .f32⟩
  | .local _ .vmem, ⟨6, _⟩ => ⟨S1x8192, .f32⟩
  | _, _ => ⟨S8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![32], ![false]⟩

def k0_cond3 (i : grid0.Coords) : BitVec 1 :=
  let arg0 : BitVec 32 := BitVec.ofNat 32 (i 0).val
  let c31_i32 : BitVec 32 := 31#32
  let v31 : BitVec 1 := Scalar.cmpi .eq arg0 c31_i32
  let v32 : BitVec 32 := Scalar.extui v31
  let c0_i32_14 : BitVec 32 := 0#32
  let v33 : BitVec 1 := Scalar.cmpi .ne v32 c0_i32_14
  v33

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S8192x3_S8192x3_0_0 : ∀ a, (![0, 0] : Fin 2 → Nat) a + S8192x3.size a ≤ S8192x3.size a
  h_S8192x3 : 0 < S8192x3.numel
  transposes_S8192x3_p1_0_S3x8192 : S8192x3.Transposes [1, 0] S3x8192
  reduces_S3x8192_S8192 : S3x8192.Reduces [0] S8192
  shapeCasts_S8192_S1x8192 : S8192.ShapeCasts S1x8192
  bitsLt_bf16_f32 : FTy.bits .bf16 < FTy.bits .f32
  inb_S256x3_S256x3_0_0 : ∀ a, (![0, 0] : Fin 2 → Nat) a + S256x3.size a ≤ S256x3.size a
  h_S256x3 : 0 < S256x3.numel
  reduces_S256x3_S256 : S256x3.Reduces [1] S256
  shapeCasts_S256_S256x1 : S256.ShapeCasts S256x1
  broadcasts_S256x1_S256x8192 : S256x1.Broadcasts S256x8192
  broadcasts_S1x8192_S256x8192 : S1x8192.Broadcasts S256x8192
  reduces_S256x8192_S256 : S256x8192.Reduces [1] S256
  inb_S256x1_S256x1_0_0 : ∀ a, (![0, 0] : Fin 2 → Nat) a + S256x1.size a ≤ S256x1.size a
  h_S256x1 : 0 < S256x1.numel
  reduces_S256x8192_S8192 : S256x8192.Reduces [0] S8192
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  reducesTo_S8192x1_S_d0_1 : S8192x1.ReducesTo [0, 1] S_
  h_S_ : 0 < S_.numel
  reducesTo_S1x8192_S_d0_1 : S1x8192.ReducesTo [0, 1] S_
  dot_S256x3_S3x8192_S256x8192_1_0_0_1_n_n_wf : DotDims.WF S256x3 S3x8192 S256x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3.size a ≤ S8192x3.size a
  hwx0_0 : ∀ i : grid0.Coords, EltTy.bits .f32 = 32 ∨ (Rect.block (s := S8192x3) S256x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x3.size a ≤ S8192x3.size a
  hwx0_1 : ∀ i : grid0.Coords, EltTy.bits .f32 = 32 ∨ (Rect.block (s := S8192x3) S8192x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .f32 = 32 ∨ (Rect.block (s := S8192x1) S256x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .f32 = 32 ∨ (Rect.block (s := S1x8192) S1x8192.size (cc0_transform_3 i) (hinb0_3 i)).WholeWords (EltTy.packing .f32)

variable [Facts₀]

def dot_S256x3_S3x8192_S256x8192_1_0_0_1_n_n : DotDims S256x3 S3x8192 S256x8192 where
  lhsContracting := [1]
  rhsContracting := [0]
  lhsNonContracting := [0]
  rhsNonContracting := [1]
  lhsBatch := []
  rhsBatch := []
  wf := dot_S256x3_S3x8192_S256x8192_1_0_0_1_n_n_wf

abbrev win0_0 : Pipeline.Window sig grid0 :=
  Pipeline.Window.ofSpec (Memref.whole main_arg0) S256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S256x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x8192.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S8192x3 : Shape := ⟨2, ![8192, 3]⟩
abbrev S_ : Shape := ⟨0, ![]⟩
abbrev S8192 : Shape := ⟨1, ![8192]⟩
abbrev S3x8192 : Shape := ⟨2, ![3, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 35
  | .vmem => 0
  | .smem => 0
  | _ => 0

abbrev bufTy : (tb : Table) → Fin (tcTables nBuf tb) → BufTy
  | .hbm, ⟨0, _⟩ => ⟨S8192x3, .f32⟩
  | .hbm, ⟨1, _⟩ => ⟨S8192x3, .f32⟩
  | .hbm, ⟨2, _⟩ => ⟨S8192x3, .f32⟩
  | .hbm, ⟨3, _⟩ => ⟨S_, .f32⟩
  | .hbm, ⟨4, _⟩ => ⟨S8192, .f32⟩
  | .hbm, ⟨5, _⟩ => ⟨S8192x3, .f32⟩
  | .hbm, ⟨6, _⟩ => ⟨S_, .f32⟩
  | .hbm, ⟨7, _⟩ => ⟨S8192, .f32⟩
  | .hbm, ⟨8, _⟩ => ⟨S3x8192, .f32⟩
  | .hbm, ⟨9, _⟩ => ⟨S8192x8192, .f32⟩
  | .hbm, ⟨10, _⟩ => ⟨S8192x1, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_cst_7 : Ref sig .tc := ⟨.hbm, 30, rfl⟩
abbrev main_v20 : Ref sig .tc := ⟨.hbm, 31, rfl⟩
abbrev main_cst_8 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  reducesTo_S8192x3_S8192_d1 : S8192x3.ReducesTo [1] S8192
  h_S_ : 0 < S_.numel
  transposes_S8192x3_S3x8192_1_0 : S8192x3.Transposes [1, 0] S3x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  reducesTo_S8192x8192_S8192_d0 : S8192x8192.ReducesTo [0] S8192
  dot_S8192x3_S3x8192_S8192x8192_1_0_0_1_n_n_wf : DotDims.WF S8192x3 S3x8192 S8192x8192 [1] [0] [0] [1] [] []

variable [Facts₀]

def dot_S8192x3_S3x8192_S8192x8192_1_0_0_1_n_n : DotDims S8192x3 S3x8192 S8192x8192 where
  lhsContracting := [1]
  rhsContracting := [0]
  lhsNonContracting := [0]
  rhsNonContracting := [1]
  lhsBatch := []
  rhsBatch := []
  wf := dot_S8192x3_S3x8192_S8192x8192_1_0_0_1_n_n_wf

class Facts : Prop extends Facts₀ where

variable [Facts]
-- ==== Proof.Pieces.lean ====
/-
  What each control case of the kernel body leaves behind, as values.

  The body's stores at one grid point are found by running it once per case; here each found store is read back as the
  pure term it stores.  With `x0` the tile of 256 rows of the first cloud the point was handed and `x1` the whole second
  cloud, every case leaves in the row-minima block the column `k0_pay2 x1 x0` of this tile's row minima.  In the carried
  row the first point (case A) leaves this tile's column minima `k0_pay4 x1 x0`; a later point (cases B and C), which
  finds the row at `xs0`, leaves `k0_pay5 x1 x0 xs0`, its entrywise `min` with this tile's column minima.  The last
  point (case C) also copies the carried row, as just updated, into the column-minima block.  Each lemma is the same
  three steps: the stores cover the buffer, so reading them back over anything is their canonical contents; the one
  covering store's payload is what is read; its loads read the whole buffers they were handed.
-/
import proofs.«154279_j43095701848170_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem Idealize.ShloMosaic.Tactic

variable {F : FTy → Type} [FloatOps F]

/-- The origin of a rank-two buffer, as the function the whole-buffer lemmas are stated over. -/
theorem hz : (![0, 0] : Fin 2 → Nat) = fun _ => 0 := funext fun a => by fin_cases a <;> rfl

variable (c : Dev nD) (i : grid0.Coords)
  (arg1 : Memref sig .tc .vmem S256x3 .f32) (harg1 : arg1.IsWhole) (arg2 : Memref sig .tc .vmem S8192x3 .f32) (harg2 : arg2.IsWhole)
  (arg3 : Memref sig .tc .vmem S256x1 .f32) (harg3 : arg3.IsWhole) (arg4 : Memref sig .tc .vmem S1x8192 .f32) (harg4 : arg4.IsWhole)
  (arg5 : Memref sig .tc .vmem S1x8192 .f32) (harg5 : arg5.IsWhole)

/-! ## The first point -/

/-- The first point leaves this tile's row minima in the row-minima block. -/
theorem rows_A (hc0 : cond0_0 i) (hc1 : ¬cond0_1 i) (hc2 : ¬cond0_2 i) (x0 : Vec F S256x3 .f32) (x1 : Vec F S8192x3 .f32) :
    out0_A_2 c i arg1 harg1 arg2 harg2 arg3 harg3 arg4 harg4 arg5 harg5 hc0 hc1 hc2 x0 x1 = k0_pay2 x1 x0 := by
  unfold out0_A_2
  rw [View.read_writes_eq_canon _ _ _ (cover0_A_2 c i arg1 harg1 arg2 harg2 arg3 harg3 arg4 harg4 arg5 harg5 hc0 hc1 hc2 x0 x1)]
  unfold kernelRun0_A
  dsimp only
  sl_unfold_words
  rw [View.canon_unit_zero hz]
  simp only [View.readAt_eq_ld, harg1.read_unread, harg2.read_unread, View.ld_unit_zero (S := S8192x3) hz,
    View.ld_unit_zero (S := S256x3) hz]

/-- The first point leaves this tile's column minima in the carried row. -/
theorem acc_A (hc0 : cond0_0 i) (hc1 : ¬cond0_1 i) (hc2 : ¬cond0_2 i) (x0 : Vec F S256x3 .f32) (x1 : Vec F S8192x3 .f32) :
    sout0_A_0 c i arg1 harg1 arg2 harg2 arg3 harg3 arg4 harg4 arg5 harg5 hc0 hc1 hc2 x0 x1 = k0_pay4 x1 x0 := by
  unfold sout0_A_0
  rw [View.read_writes_eq_canon _ _ _ (scover0_A_0 c i arg1 harg1 arg2 harg2 arg3 harg3 arg4 harg4 arg5 harg5 hc0 hc1 hc2 x0 x1)]
  unfold kernelRun0_A
  dsimp only
  sl_unfold_words
  rw [View.canon_unit_zero hz]
  simp only [View.readAt_eq_ld, harg1.read_unread, harg2.read_unread, View.ld_unit_zero (S := S8192x3) hz,
    View.ld_unit_zero (S := S256x3) hz]

/-! ## A point after the first and before the last -/

/-- A middle point leaves this tile's row minima in the row-minima block. -/
theorem rows_B (hc0 : ¬cond0_0 i) (hc1 : cond0_1 i) (hc2 : ¬cond0_2 i) (x0 : Vec F S256x3 .f32) (x1 : Vec F S8192x3 .f32)
    (xs0 : Vec F S1x8192 .f32) :
    out0_B_2 c i arg1 harg1 arg2 harg2 arg3 harg3 arg4 harg4 arg5 harg5 hc0 hc1 hc2 x0 x1 xs0 = k0_pay2 x1 x0 := by
  unfold out0_B_2
  rw [View.read_writes_eq_canon _ _ _ (cover0_B_2 c i arg1 harg1 arg2 harg2 arg3 harg3 arg4 harg4 arg5 harg5 hc0 hc1 hc2 x0 x1 xs0)]
  unfold kernelRun0_B
  dsimp only
  sl_unfold_words
  rw [View.canon_unit_zero hz]
  simp only [View.readAt_eq_ld, harg1.read_unread, harg2.read_unread, harg5.read_unread, View.ld_unit_zero (S := S8192x3) hz,
    View.ld_unit_zero (S := S256x3) hz, View.ld_unit_zero (S := S1x8192) hz]

/-- A middle point leaves in the carried row its `min` with this tile's column minima. -/
theorem acc_B (hc0 : ¬cond0_0 i) (hc1 : cond0_1 i) (hc2 : ¬cond0_2 i) (x0 : Vec F S256x3 .f32) (x1 : Vec F S8192x3 .f32)
    (xs0 : Vec F S1x8192 .f32) :
    sout0_B_0 c i arg1 harg1 arg2 harg2 arg3 harg3 arg4 harg4 arg5 harg5 hc0 hc1 hc2 x0 x1 xs0 = k0_pay5 x1 x0 xs0 := by
  unfold sout0_B_0
  rw [View.read_writes_eq_canon _ _ _ (scover0_B_0 c i arg1 harg1 arg2 harg2 arg3 harg3 arg4 harg4 arg5 harg5 hc0 hc1 hc2 x0 x1 xs0)]
  unfold kernelRun0_B
  dsimp only
  sl_unfold_words
  rw [View.canon_unit_zero hz]
  simp only [View.readAt_eq_ld, harg1.read_unread, harg2.read_unread, harg5.read_unread, View.ld_unit_zero (S := S8192x3) hz,
    View.ld_unit_zero (S := S256x3) hz, View.ld_unit_zero (S := S1x8192) hz]

/-! ## The last point -/

/-- The last point leaves this tile's row minima in the row-minima block. -/
theorem rows_C (hc0 : ¬cond0_0 i) (hc1 : cond0_1 i) (hc2 : cond0_2 i) (x0 : Vec F S256x3 .f32) (x1 : Vec F S8192x3 .f32)
    (xs0 : Vec F S1x8192 .f32) :
    out0_C_2 c i arg1 harg1 arg2 harg2 arg3 harg3 arg4 harg4 arg5 harg5 hc0 hc1 hc2 x0 x1 xs0 = k0_pay2 x1 x0 := by
  unfold out0_C_2
  rw [View.read_writes_eq_canon _ _ _ (cover0_C_2 c i arg1 harg1 arg2 harg2 arg3 harg3 arg4 harg4 arg5 harg5 hc0 hc1 hc2 x0 x1 xs0)]
  unfold kernelRun0_C
  dsimp only
  sl_unfold_words
  rw [View.canon_unit_zero hz]
  simp only [View.readAt_eq_ld, harg1.read_unread, harg2.read_unread, harg5.read_unread, View.ld_unit_zero (S := S8192x3) hz,
    View.ld_unit_zero (S := S256x3) hz, View.ld_unit_zero (S := S1x8192) hz]

/-- The last point leaves in the carried row its `min` with this tile's column minima. -/
theorem acc_C (hc0 : ¬cond0_0 i) (hc1 : cond0_1 i) (hc2 : cond0_2 i) (x0 : Vec F S256x3 .f32) (x1 : Vec F S8192x3 .f32)
    (xs0 : Vec F S1x8192 .f32) :
    sout0_C_0 c i arg1 harg1 arg2 harg2 arg3 harg3 arg4 harg4 arg5 harg5 hc0 hc1 hc2 x0 x1 xs0 = k0_pay5 x1 x0 xs0 := by
  unfold sout0_C_0
  rw [View.read_writes_eq_canon _ _ _ (scover0_C_0 c i arg1 harg1 arg2 harg2 arg3 harg3 arg4 harg4 arg5 harg5 hc0 hc1 hc2 x0 x1 xs0)]
  unfold kernelRun0_C
  dsimp only
  sl_unfold_words
  rw [View.canon_unit_zero hz]
  simp only [View.readAt_eq_ld, harg1.read_unread, harg2.read_unread, harg5.read_unread, View.ld_unit_zero (S := S8192x3) hz,
    View.ld_unit_zero (S := S256x3) hz, View.ld_unit_zero (S := S1x8192) hz]

/-- The last point copies the carried row, as it has just updated it, into the column-minima block. -/
theorem cols_C (hc0 : ¬cond0_0 i) (hc1 : cond0_1 i) (hc2 : cond0_2 i) (x0 : Vec F S256x3 .f32) (x1 : Vec F S8192x3 .f32)
    (xs0 : Vec F S1x8192 .f32) :
    out0_C_3 c i arg1 harg1 arg2 harg2 arg3 harg3 arg4 harg4 arg5 harg5 hc0 hc1 hc2 x0 x1 xs0 = k0_pay5 x1 x0 xs0 := by
  unfold out0_C_3
  rw [View.read_writes_eq_canon _ _ _ (cover0_C_3 c i arg1 harg1 arg2 harg2 arg3 harg3 arg4 harg4 arg5 harg5 hc0 hc1 hc2 x0 x1 xs0)]
  unfold kernelRun0_C
  dsimp only
  sl_unfold_words
  rw [View.canon_unit_zero hz, View.readCov_unit_zero (S := S1x8192) _ hz]
  simp only [View.readAt_eq_ld, harg1.read_unread, harg2.read_unread, harg5.read_unread, View.ld_unit_zero (S := S8192x3) hz,
    View.ld_unit_zero (S := S256x3) hz, View.ld_unit_zero (S := S1x8192) hz]

end Cert.KernelIdeal.Pieces

end
-- ==== Proof.Acc.lean ====
/-
  The accumulation across the grid: what the row-minima block, the column-minima block and the carried row hold after
  each of the 32 grid points.

  Point `t` is handed tile `t` of the first cloud (`tile t`: its 256 rows) and the whole second cloud (`cloud t`, the
  same array at every point).  Whatever the point, its row-minima block ends at the row minima of its own tile
  (`rows_eq`).  The carried row follows a recurrence (`carried`): after point 0 it is tile 0's column minima; after
  point `n + 1` it is the entrywise `min` of what point `n` left and tile `n + 1`'s column minima
  (`scratch_eq`, by induction on the point: the point's control case is decided by its number — the first point resets,
  every later point updates).  The last point copies the carried row, as it has just updated it, into the
  column-minima block (`cols_last`).
-/
import proofs.«154279_j43095701848170_1_alg».proof.Proof.Pieces

noncomputable section

namespace Cert.KernelIdeal.Acc

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The tile of 256 rows of the first cloud that grid point `t` is handed. -/
abbrev tile (c : Dev nD) (t : Fin cfg0.N) : Vec F S256x3 .f32 := iblk m c 0 t
/-- The second cloud as grid point `t` is handed it (whole, at every point). -/
abbrev cloud (c : Dev nD) (t : Fin cfg0.N) : Vec F S8192x3 .f32 := iblk m c 1 t

/-- The carried row after point `n`: tile 0's column minima, then `min` with each later tile's in turn. -/
def carried (c : Dev nD) : (n : ℕ) → n < cfg0.N → Vec F S1x8192 .f32
  | 0, h => k0_pay4 (cloud m c ⟨0, h⟩) (tile m c ⟨0, h⟩)
  | n + 1, h => k0_pay5 (cloud m c ⟨n + 1, h⟩) (tile m c ⟨n + 1, h⟩) (carried c n (Nat.lt_of_succ_lt h))

theorem carried_zero (c : Dev nD) (h : 0 < cfg0.N) :
    carried m c 0 h = k0_pay4 (cloud m c ⟨0, h⟩) (tile m c ⟨0, h⟩) := rfl

theorem carried_succ (c : Dev nD) (n : ℕ) (h : n + 1 < cfg0.N) :
    carried m c (n + 1) h = k0_pay5 (cloud m c ⟨n + 1, h⟩) (tile m c ⟨n + 1, h⟩) (carried m c n (Nat.lt_of_succ_lt h)) := rfl

/-- After point `n` the carried row holds `carried n`. -/
theorem scratch_eq (c : Dev nD) : ∀ (n : ℕ) (h : n < cfg0.N), (outsAt0 m c n h).2.2 = carried m c n h
  | 0, h => by
    have h0 : (⟨0, h⟩ : Fin cfg0.N).val % 32 = 0 := rfl
    have h1 : ¬1 ≤ (⟨0, h⟩ : Fin cfg0.N).val := by dsimp only; omega
    have h2 : ¬(⟨0, h⟩ : Fin cfg0.N).val % 32 = 31 := by dsimp only; omega
    rw [show outsAt0 m c 0 h = outsAt0 m c (⟨0, h⟩ : Fin cfg0.N).val (⟨0, h⟩ : Fin cfg0.N).isLt from rfl, outsAt0_A m c ⟨0, h⟩ h0 h1 h2]
    dsimp only
    exact Pieces.acc_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) ((hcond0_0 ⟨0, h⟩).mpr h0) (fun hh => h1 ((hcond0_1 ⟨0, h⟩).mp hh)) (fun hh => h2 ((hcond0_2 ⟨0, h⟩).mp hh)) (iblk m c 0 ⟨0, h⟩) (iblk m c 1 ⟨0, h⟩)
  | n + 1, h => by
    have hN : cfg0.N = 32 := N_0
    have h0 : ¬(⟨n + 1, h⟩ : Fin cfg0.N).val % 32 = 0 := by dsimp only; omega
    have h1 : 1 ≤ (⟨n + 1, h⟩ : Fin cfg0.N).val := by dsimp only; omega
    rw [carried_succ, ← scratch_eq c n (Nat.lt_of_succ_lt h)]
    by_cases h2 : (⟨n + 1, h⟩ : Fin cfg0.N).val % 32 = 31
    · rw [show outsAt0 m c (n + 1) h = outsAt0 m c (⟨n + 1, h⟩ : Fin cfg0.N).val (⟨n + 1, h⟩ : Fin cfg0.N).isLt from rfl, outsAt0_C m c ⟨n + 1, h⟩ h0 h1 h2]
      dsimp only
      exact Pieces.acc_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) ((hcond0_1 ⟨n + 1, h⟩).mpr h1) ((hcond0_2 ⟨n + 1, h⟩).mpr h2) (iblk m c 0 ⟨n + 1, h⟩) (iblk m c 1 ⟨n + 1, h⟩) (outsAt0 m c n (Nat.lt_of_succ_lt h)).2.2
    · rw [show outsAt0 m c (n + 1) h = outsAt0 m c (⟨n + 1, h⟩ : Fin cfg0.N).val (⟨n + 1, h⟩ : Fin cfg0.N).isLt from rfl, outsAt0_B m c ⟨n + 1, h⟩ h0 h1 h2]
      dsimp only
      exact Pieces.acc_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) ((hcond0_1 ⟨n + 1, h⟩).mpr h1) (fun hh => h2 ((hcond0_2 ⟨n + 1, h⟩).mp hh)) (iblk m c 0 ⟨n + 1, h⟩) (iblk m c 1 ⟨n + 1, h⟩) (outsAt0 m c n (Nat.lt_of_succ_lt h)).2.2

/-- After any point the row-minima block holds the row minima of that point's tile. -/
theorem rows_eq (c : Dev nD) (t : Fin cfg0.N) : (outsAt0 m c t.val t.isLt).1 = k0_pay2 (cloud m c t) (tile m c t) := by
  have hN : cfg0.N = 32 := N_0
  have ht : t.val < 32 := lt_of_lt_of_eq t.isLt hN
  by_cases h0 : t.val % 32 = 0
  · have h1 : ¬1 ≤ t.val := by omega
    have h2 : ¬t.val % 32 = 31 := by omega
    rw [outsAt0_A m c t h0 h1 h2]
    dsimp only
    exact Pieces.rows_A c (grid0.coords t) (ms0_0 t) (hs0_0 t) (ms0_1 t) (hs0_1 t) (ms0_2 t) (hs0_2 t) (ms0_3 t) (hs0_3 t) scM0_0 (Memref.isWhole_whole _) ((hcond0_0 t).mpr h0) (fun hh => h1 ((hcond0_1 t).mp hh)) (fun hh => h2 ((hcond0_2 t).mp hh)) (iblk m c 0 t) (iblk m c 1 t)
  · have h1 : 1 ≤ t.val := by omega
    by_cases h2 : t.val % 32 = 31
    · rw [outsAt0_C m c t h0 h1 h2]
      dsimp only
      exact Pieces.rows_C c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1) ((hcond0_2 t).mpr h2) (iblk m c 0 t) (iblk m c 1 t) (outsAt0 m c (t.val - 1) (Nat.lt_of_le_of_lt (Nat.sub_le _ _) t.isLt)).2.2
    · rw [outsAt0_B m c t h0 h1 h2]
      dsimp only
      exact Pieces.rows_B c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1) (fun hh => h2 ((hcond0_2 t).mp hh)) (iblk m c 0 t) (iblk m c 1 t) (outsAt0 m c (t.val - 1) (Nat.lt_of_le_of_lt (Nat.sub_le _ _) t.isLt)).2.2

/-- After the last point the column-minima block holds what the carried row holds. -/
theorem cols_last (c : Dev nD) (t : Fin cfg0.N) (h31 : t.val = 31) :
    (outsAt0 m c t.val t.isLt).2.1 = (outsAt0 m c t.val t.isLt).2.2 := by
  have h0 : ¬t.val % 32 = 0 := by omega
  have h1 : 1 ≤ t.val := by omega
  have h2 : t.val % 32 = 31 := by omega
  rw [outsAt0_C m c t h0 h1 h2]
  dsimp only
  exact (Pieces.cols_C c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1) ((hcond0_2 t).mpr h2) (iblk m c 0 t) (iblk m c 1 t) (outsAt0 m c (t.val - 1) (Nat.lt_of_le_of_lt (Nat.sub_le _ _) t.isLt)).2.2).trans
    (Pieces.acc_C c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h1) ((hcond0_2 t).mpr h2) (iblk m c 0 t) (iblk m c 1 t) (outsAt0 m c (t.val - 1) (Nat.lt_of_le_of_lt (Nat.sub_le _ _) t.isLt)).2.2).symm

end Cert.KernelIdeal.Acc

end
-- ==== Proof.Blocks.lean ====
/-
  Where the windows put their blocks.

  The grid has 32 points.  At point `t` the first cloud's window holds rows `256·t … 256·t + 255` (block index `(t, 0)`,
  block 256 × 3), so row `p` of the tile is row `256·t + p` of the cloud (`tile_apply`); the second cloud's window holds
  the whole array at every point (block index `(0, 0)`, block 8192 × 3: `cloud_apply`).  The row-minima output has block
  index `(t, 0)` with block 256 × 1, the column-minima output block index `(0, 0)` with block 1 × 8192.  The index maps
  are decided once over the 32 points; an element of a block sits in its array, on each axis, at block index × block
  size + its coordinate in the block.
-/
import proofs.«154279_j43095701848170_1_alg».proof.Proof.Gen.KernelIdeal.Frame
import Idealize.ShloMosaic.Lib.Pipeline.Value
import Idealize.ShloMosaic.Lib.ValueIdx

noncomputable section

namespace Cert.KernelIdeal.Blocks

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The block indices of the four windows at every grid point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

/-- A grid point's number is below 32. -/
theorem point_lt (t : Fin cfg0.N) : t.val < 32 := lt_of_lt_of_eq t.isLt (show cfg0.N = 32 from N_0)

/-- Row `p` of tile `t`, as a row of the whole cloud. -/
def rowOf (t : Fin cfg0.N) (p : Fin 256) : Fin 8192 :=
  ⟨256 * t.val + p.val, by have := point_lt t; have := p.isLt; omega⟩

theorem rowOf_val (t : Fin cfg0.N) (p : Fin 256) : (rowOf t p).val = 256 * t.val + p.val := rfl

/-- Row `p` of the tile point `t` is handed is row `256·t + p` of the first cloud. -/
theorem tile_apply (c : Dev nD) (t : Fin cfg0.N) (p : Fin 256) (k : Fin 3) :
    (iblk m c 0 t : Vec F S256x3 .f32) (ix2 p k) = m ((c : Thread nD τ).loc main_arg0) (ix2 (rowOf t p) k) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 256 + 1 * p.val = 256 * t.val + p.val; omega
  | ⟨1, _⟩ => show win0_0.index t (1 : Fin 2) * 3 + 1 * k.val = k.val; omega

/-- The block of the second cloud point `t` is handed is the whole second cloud. -/
theorem cloud_apply (c : Dev nD) (t : Fin cfg0.N) (q : Fin 8192) (k : Fin 3) :
    (iblk m c 1 t : Vec F S8192x3 .f32) (ix2 q k) = m ((c : Thread nD τ).loc main_arg1) (ix2 q k) := by
  obtain ⟨-, -, e2, e3, -⟩ := idx_facts t
  unfold iblk
  rw [View.read_apply]
  show V m c main_arg1 _ = _
  rw [V_main_arg1]
  congr 1
  funext a
  apply Fin.ext
  match a with
  | ⟨0, _⟩ => show win0_1.index t (0 : Fin 2) * 8192 + 1 * q.val = q.val; omega
  | ⟨1, _⟩ => show win0_1.index t (1 : Fin 2) * 3 + 1 * k.val = k.val; omega

end Cert.KernelIdeal.Blocks

end
-- ==== Proof.Spec.lean ====
/-
  The specification both programs are proved equal to: the symmetric Chamfer distance of two clouds of 8192 points in
  three dimensions, written once over the two point arrays.

  For rows `i` of the first cloud and `j` of the second the squared distance is taken by the expansion
  `‖a‖² + ‖b‖² − 2·⟨a, b⟩`, clamped below at zero: `dist2 i j = max ((‖gt i‖² + ‖gen j‖²) − two · ⟨gt i, gen j⟩) zero`.
  `rowMin i` is the least `dist2 i j` over `j`, `colMin j` the least over `i`, each a fold of `min` from the
  initial word `inf`; the result is the mean of the row minima plus the mean of the column minima, each mean a sum
  divided by `count`.  The four float words (`two`, `zero`, `inf`, `count`) are kept as the patterns both programs
  carry, never evaluated: the same word on both sides denotes the same extended real.

  The one algebraic law the comparison needs is here too (`runMin_eq_fold`): a minimum taken tile by tile — the fold
  over the 256 rows of tile 0, then `min` with the fold over each later tile in turn — is the fold over all
  32 · 256 = 8192 rows.  It holds in any linear order because `x ≤ fold min c s f` says `x ≤ c` and `x ≤ f i` for
  every `i` of `s`, and every row `i` is row `i % 256` of tile `i / 256`.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- A cloud of 8192 points in three dimensions, one extended real per coordinate. -/
abbrev Pts : Type := (⟨2, ![8192, 3]⟩ : Shape).Idx → EReal

/-- The factor of the cross term, the word of `2.0`. -/
def two : EReal := Ideal.ofBits .f32 0x40000000#32
/-- The floor of a squared distance, the word of `0.0`. -/
def zero : EReal := Ideal.ofBits .f32 0x00000000#32
/-- What every minimum starts from, the word of `+∞`. -/
def inf : EReal := Ideal.ofBits .f32 0x7F800000#32
/-- The number of points a mean divides by, the word of `8192.0`. -/
def count : EReal := Ideal.ofBits .f32 0x46000000#32

/-- `‖x i‖²`: the sum of the squares of point `i`'s three coordinates. -/
def normSq (x : Pts) (i : Fin 8192) : EReal := ∑ k : Fin 3, x (ix2 i k) * x (ix2 i k)

/-- `⟨x i, y j⟩`: the inner product of point `i` of `x` and point `j` of `y`. -/
def inner (x y : Pts) (i j : Fin 8192) : EReal := ∑ k : Fin 3, x (ix2 i k) * y (ix2 j k)

/-- The clamped squared distance between point `i` of `gt` and point `j` of `gen`. -/
def dist2 (gt gen : Pts) (i j : Fin 8192) : EReal :=
  max ((normSq gt i + normSq gen j) - two * inner gt gen i j) zero

/-- The squared distance from point `i` of `gt` to its nearest point of `gen`. -/
def rowMin (gt gen : Pts) (i : Fin 8192) : EReal :=
  (Finset.univ : Finset (Fin 8192)).fold min inf fun j => dist2 gt gen i j

/-- The squared distance from point `j` of `gen` to its nearest point of `gt`. -/
def colMin (gt gen : Pts) (j : Fin 8192) : EReal :=
  (Finset.univ : Finset (Fin 8192)).fold min inf fun i => dist2 gt gen i j

/-- The Chamfer distance: the mean of the row minima plus the mean of the column minima. -/
def result (gt gen : Pts) : EReal :=
  Ideal.div (∑ i : Fin 8192, rowMin gt gen i) count + Ideal.div (∑ j : Fin 8192, colMin gt gen j) count

/-! ## A minimum taken tile by tile -/

/-- The running minimum of a sequence: `g 0`, then `min` with each later term. -/
def runMin (g : ℕ → EReal) : ℕ → EReal
  | 0 => g 0
  | n + 1 => min (runMin g n) (g (n + 1))

/-- Below the running minimum is below every term so far. -/
theorem le_runMin_iff (g : ℕ → EReal) (x : EReal) (n : ℕ) : x ≤ runMin g n ↔ ∀ t, t ≤ n → x ≤ g t := by
  induction n with
  | zero =>
    show x ≤ g 0 ↔ _
    constructor
    · intro h t ht
      obtain rfl : t = 0 := by omega
      exact h
    · intro h
      exact h 0 (le_refl 0)
  | succ n ih =>
    show x ≤ min (runMin g n) (g (n + 1)) ↔ _
    rw [le_min_iff, ih]
    constructor
    · rintro ⟨h1, h2⟩ t ht
      rcases Nat.lt_or_ge t (n + 1) with h | h
      · exact h1 t (by omega)
      · obtain rfl : t = n + 1 := by omega
        exact h2
    · intro h
      exact ⟨fun t ht => h t (by omega), h (n + 1) (le_refl _)⟩

/-- THE LAW. If term `t` of the sequence is the fold of `min` from `c` over the 256 rows of tile `t`, the running
    minimum after the last of the 32 tiles is the fold over all 8192 rows. -/
theorem runMin_eq_fold (c : EReal) (F : ℕ → EReal) (g : ℕ → EReal)
    (hg : ∀ t, t < 32 → g t = (Finset.univ : Finset (Fin 256)).fold min c fun r => F (256 * t + r.val)) :
    runMin g 31 = (Finset.univ : Finset (Fin 8192)).fold min c fun i => F i.val := by
  refine eq_of_forall_le_iff fun x => ?_
  rw [le_runMin_iff, Finset.le_fold_min]
  constructor
  · intro h
    refine ⟨?_, fun i _ => ?_⟩
    · have := h 0 (by omega)
      rw [hg 0 (by omega), Finset.le_fold_min] at this
      exact this.1
    · have hi : i.val < 8192 := i.isLt
      have := h (i.val / 256) (by omega)
      rw [hg _ (by omega), Finset.le_fold_min] at this
      have h2 := this.2 ⟨i.val % 256, Nat.mod_lt _ (by omega)⟩ (Finset.mem_univ _)
      have e : 256 * (i.val / 256) + i.val % 256 = i.val := Nat.div_add_mod _ _
      simpa only [e] using h2
  · rintro ⟨h1, h2⟩ t ht
    rw [hg t (by omega), Finset.le_fold_min]
    refine ⟨h1, fun r _ => ?_⟩
    have hr : r.val < 256 := r.isLt
    exact h2 ⟨256 * t + r.val, by omega⟩ (Finset.mem_univ _)

end Cert.Chamfer

end
-- ==== Proof.LibColumnForms.lean ====
/-
  Three readings at coordinates that any kernel keeping a reduced axis as a unit axis meets, stated for any extents.

  A reduction written with `keepdims=True` leaves its result as a column: a vector of length `a` recast to `a × 1`
  (`shapeCast_a_a1_apply`: the entry at `(i, u)` is the vector's entry `i`, the unit coordinate `u` playing no part), and
  that column is then spread along the other axis to `a × b` (`broadcastTo_a1_ab_apply`: the entry at `(p, c)` is the
  column's entry at row `p`).  And a minimum taken over one axis is, at the ideal values where `minimumf` is `min` on the
  extended reals, the fold of `min` from the accumulator's value over that axis's coordinates
  (`multiReduction_minimumf_single`: the companion of the library's single-axis readings of a sum and of a maximum).
-/
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.ColumnForms

open Idealize.ShloMosaic Idealize.ShloMosaic.ValueIdx

/-! ## The keepdims column forms of a shape cast and a broadcast, at coordinates -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-! ## A minimum over one axis, at coordinates -/

/-- A minimum reduction over one axis, at the ideal values: the fold of `min` from the accumulator's value over that
    axis's coordinates. -/
theorem multiReduction_minimumf_single {s t : Shape} {φ : FTy} {a : Fin s.rank} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Cert.ColumnForms

end
-- ==== Proof.Payload.lean ====
/-
  The kernel body's arithmetic, read at an index at the ideal instance.

  With `gen` the whole second cloud (8192 × 3) and `blk` one tile of 256 rows of the first cloud (256 × 3):
  the tile of clamped squared distances holds at `(p, q)`
  `max ((‖blk p‖² + ‖gen q‖²) − two · ⟨blk p, gen q⟩) zero` — the lane sum of the squares of a row is the squared norm, the
  matrix product into a zero accumulator of the narrowed operands is the inner product (narrowing a float is the identity
  here; the second operand is the transpose of `gen`, so its `(k, q)` entry is `gen (q, k)`), and the broadcasts of the
  column of row norms and of the row of column norms place them at `(p, q)`.  The stored column of row minima holds at
  `(p, 0)` the fold of `min` from `inf` over the 8192 columns of row `p`; the row of column minima holds at `(0, q)`
  the fold over the 256 rows of column `q`.  The value the first grid point stores in the carried row is that row of
  column minima itself, and the value a later point stores is its entrywise `min` with what the row held before.
-/
import proofs.«154279_j43095701848170_1_alg».proof.Proof.Gen.KernelIdeal.Skeleton
import proofs.«154279_j43095701848170_1_alg».proof.Proof.Spec
import proofs.«154279_j43095701848170_1_alg».proof.Proof.LibColumnForms
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.KernelIdeal.Payload

open Cert.KernelIdeal Cert.KernelIdeal.Gen
open Idealize.ShloMosaic Idealize.ShloMosaic.ValueIdx Cert.ColumnForms

/-! ## The reductions over one axis of a matrix, at coordinates -/

/-- The sum over the three rows of a `[3, 8192]` array, at column `q`. -/
theorem sumRows_apply (src : FVec Ideal S3x8192 .f32) (h : S3x8192.Reduces [0] S8192) (hφ : FKind.Formats .f32)
    (hacc : (0x00000000#32 : BitVec 32) = 0x00000000#32) (q : Fin 8192) :
    multiReduction .add [0] S8192 src 0x00000000#32 h hφ hacc (ix1 q) = ∑ k : Fin 3, src (ix2 k q) :=
  (Ideal.multiReduction_add_single src 0x00000000#32 h hφ hacc (ix1 q)).trans
    (Finset.sum_congr rfl fun k _ => congrArg src (funext fun c => Fin.ext (by
      match c with
      | ⟨0, _⟩ => rfl
      | ⟨1, _⟩ => rfl)))

/-- The sum over the three columns of a `[256, 3]` array, at row `p`. -/
theorem sumCols_apply (src : FVec Ideal S256x3 .f32) (h : S256x3.Reduces [1] S256) (hφ : FKind.Formats .f32)
    (hacc : (0x00000000#32 : BitVec 32) = 0x00000000#32) (p : Fin 256) :
    multiReduction .add [1] S256 src 0x00000000#32 h hφ hacc (ix1 p) = ∑ k : Fin 3, src (ix2 p k) :=
  (Ideal.multiReduction_add_single src 0x00000000#32 h hφ hacc (ix1 p)).trans
    (Finset.sum_congr rfl fun k _ => congrArg src (funext fun c => Fin.ext (by
      match c with
      | ⟨0, _⟩ => rfl
      | ⟨1, _⟩ => rfl)))

/-- The least entry of row `p` of a `[256, 8192]` array, from the accumulator's value. -/
theorem minCols_apply (src : FVec Ideal S256x8192 .f32) (h : S256x8192.Reduces [1] S256) (hφ : FKind.Formats .f32)
    (hacc : (0x7F800000#32 : BitVec 32) = 0x7F800000#32) (p : Fin 256) :
    multiReduction .minimumf [1] S256 src 0x7F800000#32 h hφ hacc (ix1 p)
      = (Finset.univ : Finset (Fin 8192)).fold min (Ideal.ofBits .f32 0x7F800000#32) fun q => src (ix2 p q) :=
  (multiReduction_minimumf_single src 0x7F800000#32 h hφ hacc (ix1 p)).trans
    (congrArg (fun f => (Finset.univ : Finset (Fin 8192)).fold min (Ideal.ofBits .f32 0x7F800000#32) f)
      (funext fun q => congrArg src (funext fun c => Fin.ext (by
        match c with
        | ⟨0, _⟩ => rfl
        | ⟨1, _⟩ => rfl))))

/-- The least entry of column `q` of a `[256, 8192]` array, from the accumulator's value. -/
theorem minRows_apply (src : FVec Ideal S256x8192 .f32) (h : S256x8192.Reduces [0] S8192) (hφ : FKind.Formats .f32)
    (hacc : (0x7F800000#32 : BitVec 32) = 0x7F800000#32) (q : Fin 8192) :
    multiReduction .minimumf [0] S8192 src 0x7F800000#32 h hφ hacc (ix1 q)
      = (Finset.univ : Finset (Fin 256)).fold min (Ideal.ofBits .f32 0x7F800000#32) fun p => src (ix2 p q) :=
  (multiReduction_minimumf_single src 0x7F800000#32 h hφ hacc (ix1 q)).trans
    (congrArg (fun f => (Finset.univ : Finset (Fin 256)).fold min (Ideal.ofBits .f32 0x7F800000#32) f)
      (funext fun p => congrArg src (funext fun c => Fin.ext (by
        match c with
        | ⟨0, _⟩ => rfl
        | ⟨1, _⟩ => rfl))))

/-! ## The matrix product into the zero splat, at coordinates -/

/-- The left operand's row coordinate under output index `i` is `i`'s row. -/
theorem lhs_dot_0 (i : S256x8192.Idx) (q : dot_S256x3_S3x8192_S256x8192_1_0_0_1_n_n.contr.Idx) :
    (dot_S256x3_S3x8192_S256x8192_1_0_0_1_n_n.lhsIdx i q 0).val = (i 0).val := by
  unfold DotDims.lhsIdx
  rw [dif_neg (show ¬(0 : Fin S256x3.rank) ∈ dot_S256x3_S3x8192_S256x8192_1_0_0_1_n_n.lhsBatch by decide), dif_pos (show (0 : Fin S256x3.rank) ∈ dot_S256x3_S3x8192_S256x8192_1_0_0_1_n_n.lhsNonContracting by decide)]
  rfl
/-- The left operand's column coordinate is the contracted coordinate. -/
theorem lhs_dot_1 (i : S256x8192.Idx) (q : dot_S256x3_S3x8192_S256x8192_1_0_0_1_n_n.contr.Idx) :
    (dot_S256x3_S3x8192_S256x8192_1_0_0_1_n_n.lhsIdx i q 1).val = (q ⟨0, by decide⟩).val :=
  dot_S256x3_S3x8192_S256x8192_1_0_0_1_n_n.lhsIdx_val_of_single rfl i q
/-- The right operand's row coordinate is the contracted coordinate. -/
theorem rhs_dot_0 (i : S256x8192.Idx) (q : dot_S256x3_S3x8192_S256x8192_1_0_0_1_n_n.contr.Idx) :
    (dot_S256x3_S3x8192_S256x8192_1_0_0_1_n_n.rhsIdx i q 0).val = (q ⟨0, by decide⟩).val :=
  dot_S256x3_S3x8192_S256x8192_1_0_0_1_n_n.rhsIdx_val_of_single rfl i q
/-- The right operand's column coordinate under output index `i` is `i`'s column. -/
theorem rhs_dot_1 (i : S256x8192.Idx) (q : dot_S256x3_S3x8192_S256x8192_1_0_0_1_n_n.contr.Idx) :
    (dot_S256x3_S3x8192_S256x8192_1_0_0_1_n_n.rhsIdx i q 1).val = (i 1).val := by
  unfold DotDims.rhsIdx
  rw [dif_neg (show ¬(1 : Fin S3x8192.rank) ∈ dot_S256x3_S3x8192_S256x8192_1_0_0_1_n_n.rhsBatch by decide), dif_pos (show (1 : Fin S3x8192.rank) ∈ dot_S256x3_S3x8192_S256x8192_1_0_0_1_n_n.rhsNonContracting by decide)]
  rfl

/-- The product of a `[256, 3]` and a `[3, 8192]` array into the zero splat, at `(p, q)`: the sum over the three
    contracted coordinates of the products of the entries. -/
theorem matmul_zero_apply (lhs : FVec Ideal S256x3 .bf16) (rhs : FVec Ideal S3x8192 .bf16) (p : Fin 256) (q : Fin 8192) :
    matmul dot_S256x3_S3x8192_S256x8192_1_0_0_1_n_n none lhs rhs (constant (F := Ideal) S256x8192 .f32 0x00000000#32) (ix2 p q)
      = ∑ k : Fin 3, lhs (ix2 p k) * rhs (ix2 k q) := by
  simp only [matmul]
  rw [Ideal.matmul_constant_zero_apply, ← Equiv.sum_comp (ValueIdx.contrEquiv1 dot_S256x3_S3x8192_S256x8192_1_0_0_1_n_n 3 rfl rfl).symm]
  refine Finset.sum_congr rfl fun k _ => ?_
  have hk := ValueIdx.contrEquiv1_symm_val dot_S256x3_S3x8192_S256x8192_1_0_0_1_n_n 3 rfl rfl k
  have el : dot_S256x3_S3x8192_S256x8192_1_0_0_1_n_n.lhsIdx (ix2 p q) ((ValueIdx.contrEquiv1 dot_S256x3_S3x8192_S256x8192_1_0_0_1_n_n 3 rfl rfl).symm k) = ix2 p k := funext fun a => Fin.ext (by
    match a with
    | ⟨0, _⟩ => exact lhs_dot_0 _ _
    | ⟨1, _⟩ => exact (lhs_dot_1 _ _).trans hk)
  have er : dot_S256x3_S3x8192_S256x8192_1_0_0_1_n_n.rhsIdx (ix2 p q) ((ValueIdx.contrEquiv1 dot_S256x3_S3x8192_S256x8192_1_0_0_1_n_n 3 rfl rfl).symm k) = ix2 k q := funext fun a => Fin.ext (by
    match a with
    | ⟨0, _⟩ => exact (rhs_dot_0 _ _).trans hk
    | ⟨1, _⟩ => exact rhs_dot_1 _ _)
  rw [el, er]

/-! ## The three terms of the expansion, at `(p, q)` -/

/-- The column of squared row norms of the tile, broadcast along the columns, at `(p, q)`: `‖blk p‖²`. -/
theorem rowNorm_apply (blk : FVec Ideal S256x3 .f32) (h1 : S256x3.Reduces [1] S256) (hφ : FKind.Formats .f32)
    (hacc : (0x00000000#32 : BitVec 32) = 0x00000000#32) (h2 : S256.ShapeCasts S256x1)
    (h3 : S256x1.Broadcasts S256x8192) (p : Fin 256) (q : Fin 8192) :
    broadcastTo S256x8192 (shapeCast S256x1 (multiReduction .add [1] S256 (mulf blk blk) 0x00000000#32 h1 hφ hacc) h2) h3
        (ix2 p q)
      = ∑ k : Fin 3, blk (ix2 p k) * blk (ix2 p k) :=
  (broadcastTo_a1_ab_apply _ h3 p q).trans
    ((shapeCast_a_a1_apply _ h2 p (0 : Fin 1)).trans (sumCols_apply (mulf blk blk) h1 hφ hacc p))

/-- The row of squared norms of the points of `gen`, taken down the rows of its transpose and broadcast along the
    rows, at `(p, q)`: `‖gen q‖²`. -/
theorem colNorm_apply (gen : FVec Ideal S8192x3 .f32) (ht : S8192x3.Transposes [1, 0] S3x8192)
    (h1 : S3x8192.Reduces [0] S8192) (hφ : FKind.Formats .f32) (hacc : (0x00000000#32 : BitVec 32) = 0x00000000#32)
    (h2 : S8192.ShapeCasts S1x8192) (h3 : S1x8192.Broadcasts S256x8192) (p : Fin 256) (q : Fin 8192) :
    broadcastTo S256x8192
        (shapeCast S1x8192
          (multiReduction .add [0] S8192
            (mulf (transpose S3x8192 [1, 0] gen ht) (transpose S3x8192 [1, 0] gen ht)) 0x00000000#32 h1 hφ hacc) h2) h3
        (ix2 p q)
      = ∑ k : Fin 3, gen (ix2 q k) * gen (ix2 q k) :=
  (broadcastTo_1b_ab_apply _ h3 p q).trans
    ((shapeCast_a_1a_apply _ h2 (0 : Fin 1) q).trans
      ((sumRows_apply (mulf (transpose S3x8192 [1, 0] gen ht) (transpose S3x8192 [1, 0] gen ht)) h1 hφ hacc q).trans
        (Finset.sum_congr rfl fun k _ =>
          congrArg₂ (· * ·) (transpose_ix2_apply gen ht k q) (transpose_ix2_apply gen ht k q))))

/-- The product of the narrowed tile with the narrowed transpose of `gen`, into the zero splat, at `(p, q)`:
    `⟨blk p, gen q⟩`. -/
theorem cross_apply (gen : FVec Ideal S8192x3 .f32) (blk : FVec Ideal S256x3 .f32)
    (ht : S8192x3.Transposes [1, 0] S3x8192) (hb : FTy.bits .bf16 < FTy.bits .f32) (p : Fin 256) (q : Fin 8192) :
    matmul dot_S256x3_S3x8192_S256x8192_1_0_0_1_n_n none (truncf .bf16 blk hb)
        (truncf .bf16 (transpose S3x8192 [1, 0] gen ht) hb) (constant (F := Ideal) S256x8192 .f32 0x00000000#32) (ix2 p q)
      = ∑ k : Fin 3, blk (ix2 p k) * gen (ix2 q k) :=
  (matmul_zero_apply (truncf .bf16 blk hb) (truncf .bf16 (transpose S3x8192 [1, 0] gen ht) hb) p q).trans
    (Finset.sum_congr rfl fun k _ => congrArg (blk (ix2 p k) * ·) (transpose_ix2_apply gen ht k q))

/-- The tile of clamped squared distances at row `p` of the tile and column `q`. -/
theorem dist_apply (gen : Vec Ideal S8192x3 .f32) (blk : Vec Ideal S256x3 .f32) (p : Fin 256) (q : Fin 8192) :
    k0_pay1 (F := Ideal) gen blk (ix2 p q)
      = max (((∑ k : Fin 3, blk (ix2 p k) * blk (ix2 p k)) + (∑ k : Fin 3, gen (ix2 q k) * gen (ix2 q k)))
          - Cert.Chamfer.two * (∑ k : Fin 3, blk (ix2 p k) * gen (ix2 q k))) Cert.Chamfer.zero := by
  unfold k0_pay1
  exact congrArg₂ max
    (congrArg₂ (· - ·)
      (congrArg₂ (· + ·) (rowNorm_apply blk _ _ _ _ _ p q) (colNorm_apply gen _ _ _ _ _ _ p q))
      (congrArg (Cert.Chamfer.two * ·) (cross_apply gen blk _ _ p q)))
    rfl

/-- The column of row minima at `(p, 0)`: the least entry of row `p` of the tile, from `inf`. -/
theorem rowMin_apply (gen : Vec Ideal S8192x3 .f32) (blk : Vec Ideal S256x3 .f32) (p : Fin 256) :
    k0_pay2 (F := Ideal) gen blk (ix2 p (0 : Fin 1))
      = (Finset.univ : Finset (Fin 8192)).fold min Cert.Chamfer.inf fun q => k0_pay1 (F := Ideal) gen blk (ix2 p q) := by
  unfold k0_pay2
  exact (shapeCast_a_a1_apply _ _ p (0 : Fin 1)).trans (minCols_apply (k0_pay1 (F := Ideal) gen blk) _ _ _ p)

/-- The row of column minima at `(0, q)`: the least entry of column `q` of the tile, from `inf`. -/
theorem colMin_apply (gen : Vec Ideal S8192x3 .f32) (blk : Vec Ideal S256x3 .f32) (q : Fin 8192) :
    k0_pay3 (F := Ideal) gen blk (ix2 (0 : Fin 1) q)
      = (Finset.univ : Finset (Fin 256)).fold min Cert.Chamfer.inf fun p => k0_pay1 (F := Ideal) gen blk (ix2 p q) := by
  unfold k0_pay3
  exact (shapeCast_a_1a_apply _ _ (0 : Fin 1) q).trans (minRows_apply (k0_pay1 (F := Ideal) gen blk) _ _ _ q)

/-- What the first grid point stores in the carried row is the row of column minima (a cast to its own shape). -/
theorem reset_eq (gen : Vec Ideal S8192x3 .f32) (blk : Vec Ideal S256x3 .f32) :
    k0_pay4 (F := Ideal) gen blk = k0_pay3 (F := Ideal) gen blk := by
  unfold k0_pay4
  exact shapeCast_self _ _

/-- What a later grid point stores in the carried row, at `(0, q)`: the `min` of what the row held and this tile's
    column minimum. -/
theorem update_apply (gen : Vec Ideal S8192x3 .f32) (blk : Vec Ideal S256x3 .f32) (acc : Vec Ideal S1x8192 .f32) (q : Fin 8192) :
    k0_pay5 (F := Ideal) gen blk acc (ix2 (0 : Fin 1) q)
      = min (acc (ix2 (0 : Fin 1) q)) (k0_pay3 (F := Ideal) gen blk (ix2 (0 : Fin 1) q)) := by
  unfold k0_pay5
  exact congrFun (shapeCast_self _ _) (ix2 (0 : Fin 1) q)

end Cert.KernelIdeal.Payload

end
-- ==== Proof.KValue.lean ====
/-
  The kernel's blocks as values of the specification, at the ideal instance.

  With `gt` and `gen` the two argument arrays: the tile of clamped squared distances at grid point `t` holds at `(p, q)`
  the specification's `dist2` of row `256·t + p` of `gt` and row `q` of `gen` (`dist_at`: the point's tile is those rows
  of `gt`, its second block all of `gen`).  So the row-minima block of point `t` holds at `(p, 0)` the specification's
  `rowMin` of row `256·t + p` (`rows_at`: the same fold of `min` over the 8192 columns).  The carried row after point
  `n` holds at `(0, q)` the running minimum, over the tiles `0 … n`, of each tile's least entry in column `q`
  (`carried_at`, by the recurrence), and after the last point that is the specification's `colMin q`: the fold over all
  8192 rows, taken tile by tile (`cols_at`, by `Cert.Chamfer.runMin_eq_fold`).
-/
import proofs.«154279_j43095701848170_1_alg».proof.Proof.Acc
import proofs.«154279_j43095701848170_1_alg».proof.Proof.Blocks
import proofs.«154279_j43095701848170_1_alg».proof.Proof.Payload
import proofs.«154279_j43095701848170_1_alg».proof.Proof.Spec

noncomputable section

namespace Cert.KernelIdeal.KValue

open Cert.KernelIdeal Cert.KernelIdeal.Gen Cert.KernelIdeal.Acc Cert.KernelIdeal.Blocks
open Idealize.ShloMosaic Idealize.ShloMosaic.TcCoe Idealize.SL.Sem Idealize.ShloMosaic.ValueIdx

variable (m : (ℓ : Loc nD τ sig) → Buf (Elt Ideal) ℓ)

/-- The first cloud: the first argument array as the run finds it. -/
abbrev gt (c : Dev nD) : Cert.Chamfer.Pts := m ((c : Thread nD τ).loc main_arg0)
/-- The second cloud: the second argument array as the run finds it. -/
abbrev gen (c : Dev nD) : Cert.Chamfer.Pts := m ((c : Thread nD τ).loc main_arg1)

/-- The tile of point `t` at `(p, q)` is the clamped squared distance of rows `256·t + p` and `q`. -/
theorem dist_at (c : Dev nD) (t : Fin cfg0.N) (p : Fin 256) (q : Fin 8192) :
    k0_pay1 (F := Ideal) (cloud m c t) (tile m c t) (ix2 p q) = Cert.Chamfer.dist2 (gt m c) (gen m c) (rowOf t p) q := by
  rw [Payload.dist_apply]
  unfold Cert.Chamfer.dist2 Cert.Chamfer.normSq Cert.Chamfer.inner
  simp only [tile_apply m c t, cloud_apply m c t]

/-- The row-minima block of point `t` at `(p, 0)` is the row minimum of row `256·t + p`. -/
theorem rows_at (c : Dev nD) (t : Fin cfg0.N) (p : Fin 256) :
    (outsAt0 m c t.val t.isLt).1 (ix2 p (0 : Fin 1)) = Cert.Chamfer.rowMin (gt m c) (gen m c) (rowOf t p) := by
  rw [Acc.rows_eq m c t, Payload.rowMin_apply]
  unfold Cert.Chamfer.rowMin
  exact Finset.fold_congr fun q _ => dist_at m c t p q

/-- Tile `t`'s least entry in column `q` (a junk zero past the grid, where nothing reads it). -/
def tileColMin (c : Dev nD) (q : Fin 8192) (t : ℕ) : EReal :=
  if h : t < cfg0.N then k0_pay3 (F := Ideal) (cloud m c ⟨t, h⟩) (tile m c ⟨t, h⟩) (ix2 (0 : Fin 1) q) else 0

theorem tileColMin_of_lt (c : Dev nD) (q : Fin 8192) (t : ℕ) (h : t < cfg0.N) :
    tileColMin m c q t = k0_pay3 (F := Ideal) (cloud m c ⟨t, h⟩) (tile m c ⟨t, h⟩) (ix2 (0 : Fin 1) q) := dif_pos h

/-- The carried row after point `n`, at column `q`: the running minimum of the tiles' column minima. -/
theorem carried_at (c : Dev nD) (q : Fin 8192) : ∀ (n : ℕ) (h : n < cfg0.N),
    carried m c n h (ix2 (0 : Fin 1) q) = Cert.Chamfer.runMin (tileColMin m c q) n
  | 0, h => by
    rw [carried_zero, Payload.reset_eq]
    exact (tileColMin_of_lt m c q 0 h).symm
  | n + 1, h => by
    rw [carried_succ, Payload.update_apply, carried_at c q n (Nat.lt_of_succ_lt h)]
    show min _ _ = min _ (tileColMin m c q (n + 1))
    rw [tileColMin_of_lt m c q (n + 1) h]

/-- After the last point the carried row holds at column `q` the column minimum over all 8192 rows. -/
theorem cols_at (c : Dev nD) (q : Fin 8192) (h : 31 < cfg0.N) :
    carried m c 31 h (ix2 (0 : Fin 1) q) = Cert.Chamfer.colMin (gt m c) (gen m c) q := by
  have hN : cfg0.N = 32 := N_0
  rw [carried_at m c q 31 h]
  unfold Cert.Chamfer.colMin
  rw [Cert.Chamfer.runMin_eq_fold Cert.Chamfer.inf
    (fun i => if hi : i < 8192 then Cert.Chamfer.dist2 (gt m c) (gen m c) ⟨i, hi⟩ q else 0) (tileColMin m c q) ?_]
  · exact Finset.fold_congr fun i _ => dif_pos i.isLt
  · intro t ht
    have htN : t < cfg0.N := by omega
    rw [tileColMin_of_lt m c q t htN, Payload.colMin_apply]
    refine Finset.fold_congr fun r _ => ?_
    have hr : r.val < 256 := r.isLt
    have hlt : 256 * t + r.val < 8192 := by omega
    rw [dist_at m c ⟨t, htN⟩ r q, dif_pos hlt]
    rfl

end Cert.KernelIdeal.KValue

end
-- ==== Proof.Arrays.lean ====
/-
  From blocks to arrays: what the two output arrays hold after the run.

  The row-minima array (8192 × 1) is written back at every point, point `t` writing rows `256·t … 256·t + 255`; what it
  writes is that block of ONE function of the array index, `rowArr`: at `(i, 0)` the specification's `rowMin i`
  (`flushed_rows`: the block's row `p` is row `256·t + p` of the array, and holds that row's minimum).  Every row `i`
  lies in the block of point `i / 256`, so the blocks cover the array and it ends at `rowArr` (`final_rows`).  The
  column-minima array (1 × 8192) is written back at the last point only, whole; what is written is the carried row
  after the last point, which holds at `(0, q)` the specification's `colMin q` (`flushed_cols`), so the array ends at
  `colArr` (`final_cols`).
-/
import proofs.«154279_j43095701848170_1_alg».proof.Proof.KValue

noncomputable section

namespace Cert.KernelIdeal.Arrays

open Cert.KernelIdeal Cert.KernelIdeal.Gen Cert.KernelIdeal.Acc Cert.KernelIdeal.Blocks Cert.KernelIdeal.KValue
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The row-minima array: at `(i, 0)` the distance from point `i` of the first cloud to the second cloud. -/
def rowArr (c : Dev nD) : S8192x1.Idx → EReal :=
  fun y => Cert.Chamfer.rowMin (gt m c) (gen m c) ⟨(y 0).val, idx2_lt0 y⟩

/-- The column-minima array: at `(0, j)` the distance from point `j` of the second cloud to the first cloud. -/
def colArr (c : Dev nD) : S1x8192.Idx → EReal :=
  fun y => Cert.Chamfer.colMin (gt m c) (gen m c) ⟨(y 1).val, idx2_lt1 y⟩

/-- The row-minima block of point `t`, entry by entry. -/
theorem rows_entry (c : Dev nD) (t : Fin cfg0.N) (y : S256x1.Idx) :
    (outsAt0 m c t.val t.isLt).1 y = Cert.Chamfer.rowMin (gt m c) (gen m c) (rowOf t ⟨(y 0).val, idx2_lt0 y⟩) := by
  obtain ⟨p, z, rfl⟩ : ∃ (p : Fin 256) (z : Fin 1), y = ix2 p z := ⟨y 0, y 1, eq_ix2 y⟩
  obtain rfl : z = 0 := Subsingleton.elim _ _
  exact rows_at m c t p

/-- The carried row after the last point, entry by entry. -/
theorem cols_entry (c : Dev nD) (h : 31 < cfg0.N) (y : S1x8192.Idx) :
    carried m c 31 h y = Cert.Chamfer.colMin (gt m c) (gen m c) ⟨(y 1).val, idx2_lt1 y⟩ := by
  obtain ⟨z, q, rfl⟩ : ∃ (z : Fin 1) (q : Fin 8192), y = ix2 z q := ⟨y 0, y 1, eq_ix2 y⟩
  obtain rfl : z = 0 := Subsingleton.elim _ _
  exact cols_at m c q h

/-- What point `t` writes back to the row-minima array is block `t` of `rowArr`. -/
theorem flushed_rows (c : Dev nD) (t : Fin cfg0.N) :
    (dats m 0 c).flushed 2 t = ((cfg0.win 2).blk t).view.read (Elt Ideal) (rowArr m c) := by
  obtain ⟨-, -, -, -, e4, e5, -⟩ := idx_facts t
  show (cfg0.win 2).cut (grid0.coords t) ((dats m 0 c).after 2 t) = _
  rw [after0_2]
  funext y
  refine (rows_entry m c t y).trans ?_
  rw [View.read_apply]
  show _ = rowArr m c (((cfg0.win 2).blk t).view.emb y)
  unfold rowArr
  congr 1
  apply Fin.ext
  show 256 * t.val + (y 0).val = win0_2.index t (0 : Fin 2) * 256 + 1 * (y 0).val
  omega

/-- What the last point writes back to the column-minima array is the (one, whole) block of `colArr`. -/
theorem flushed_cols (c : Dev nD) (t : Fin cfg0.N) (hf : (cfg0.win 3).flush t = true) :
    (dats m 0 c).flushed 3 t = ((cfg0.win 3).blk t).view.read (Elt Ideal) (colArr m c) := by
  have hN : cfg0.N = 32 := N_0
  have ht : t.val < 32 := point_lt t
  have h31 : t.val = 31 := by have := (flush0_3 t).mp hf; omega
  obtain ⟨-, -, -, -, -, -, e6, e7⟩ := idx_facts t
  show (cfg0.win 3).cut (grid0.coords t) ((dats m 0 c).after 3 t) = _
  rw [after0_3, Acc.cols_last m c t h31]
  obtain ⟨n, hn⟩ := t
  obtain rfl : n = 31 := h31
  rw [Acc.scratch_eq m c 31 hn]
  funext y
  refine (cols_entry m c hn y).trans ?_
  rw [View.read_apply]
  show _ = colArr m c (((cfg0.win 3).blk ⟨31, hn⟩).view.emb y)
  unfold colArr
  congr 1
  apply Fin.ext
  show (y 1).val = win0_3.index ⟨31, hn⟩ (1 : Fin 2) * 8192 + 1 * (y 1).val
  omega

/-- An index of the row-minima array is in point `t`'s block iff each coordinate is in the block's range. -/
theorem mem_rows (t : Fin cfg0.N) (i : S8192x1.Idx) :
    i ∈ ((cfg0.win 2).blk t).view.set ↔ ∀ a : Fin 2, win0_2.index t a * S256x1.size a ≤ (i a).val ∧ (i a).val < win0_2.index t a * S256x1.size a + S256x1.size a := by
  show i ∈ ((View.whole main_v0_0).slice (win0_2.rect t)).set ↔ _
  rw [View.set_slice_whole, Rect.mem_set_unit]
  exact Iff.rfl

/-- An index of the column-minima array is in point `t`'s block iff each coordinate is in the block's range. -/
theorem mem_cols (t : Fin cfg0.N) (i : S1x8192.Idx) :
    i ∈ ((cfg0.win 3).blk t).view.set ↔ ∀ a : Fin 2, win0_3.index t a * S1x8192.size a ≤ (i a).val ∧ (i a).val < win0_3.index t a * S1x8192.size a + S1x8192.size a := by
  show i ∈ ((View.whole main_v0_1).slice (win0_3.rect t)).set ↔ _
  rw [View.set_slice_whole, Rect.mem_set_unit]
  exact Iff.rfl

/-- THE ROW-MINIMA ARRAY after the run. -/
theorem final_rows (c : Dev nD) : (dats m 0 c).arrAt 2 cfg0.N = rowArr m c := by
  have hN : cfg0.N = 32 := N_0
  refine (dats m 0 c).arrAt_eq_of_cover 2 (rowArr m c) (fun t _ => flushed_rows m c t) fun i => ?_
  have hi0 : (i 0).val < 8192 := (i 0).isLt
  have hi1 : (i 1).val < 1 := (i 1).isLt
  refine ⟨⟨(i 0).val / 256, by omega⟩, flush0_2 _, ?_⟩
  rw [mem_rows]
  obtain ⟨-, -, -, -, e4, e5, -⟩ := idx_facts ⟨(i 0).val / 256, by omega⟩
  intro a
  match a with
  | ⟨0, _⟩ =>
    show win0_2.index ⟨(i 0).val / 256, _⟩ (0 : Fin 2) * 256 ≤ (i 0).val ∧ (i 0).val < win0_2.index ⟨(i 0).val / 256, _⟩ (0 : Fin 2) * 256 + 256
    rw [e4]; dsimp only; omega
  | ⟨1, _⟩ =>
    show win0_2.index ⟨(i 0).val / 256, _⟩ (1 : Fin 2) * 1 ≤ (i 1).val ∧ (i 1).val < win0_2.index ⟨(i 0).val / 256, _⟩ (1 : Fin 2) * 1 + 1
    rw [e5]; omega

/-- THE COLUMN-MINIMA ARRAY after the run. -/
theorem final_cols (c : Dev nD) : (dats m 0 c).arrAt 3 cfg0.N = colArr m c := by
  have hN : cfg0.N = 32 := N_0
  refine (dats m 0 c).arrAt_eq_of_cover 3 (colArr m c) (fun t hf => flushed_cols m c t hf) fun i => ?_
  have hi0 : (i 0).val < 1 := (i 0).isLt
  have hi1 : (i 1).val < 8192 := (i 1).isLt
  refine ⟨⟨31, by omega⟩, (flush0_3 _).mpr rfl, ?_⟩
  rw [mem_cols]
  obtain ⟨-, -, -, -, -, -, e6, e7⟩ := idx_facts ⟨31, by omega⟩
  intro a
  match a with
  | ⟨0, _⟩ =>
    show win0_3.index ⟨31, _⟩ (0 : Fin 2) * 1 ≤ (i 0).val ∧ (i 0).val < win0_3.index ⟨31, _⟩ (0 : Fin 2) * 1 + 1
    rw [e6]; omega
  | ⟨1, _⟩ =>
    show win0_3.index ⟨31, _⟩ (1 : Fin 2) * 8192 ≤ (i 1).val ∧ (i 1).val < win0_3.index ⟨31, _⟩ (1 : Fin 2) * 8192 + 8192
    rw [e7]; omega

end Cert.KernelIdeal.Arrays

end
-- ==== Proof.KRun.lean ====
/-
  The kernel's run, read: its result is the Chamfer distance of its two argument arrays.

  After the region the program takes the mean of the row-minima array and the mean of the column-minima array — each a
  host sum over every entry from the initial zero, divided by the count — and adds them.  The two arrays end at
  `rowArr` and `colArr`, whose entries are the specification's row and column minima; a sum over the 8192 × 1 (or
  1 × 8192) index set is the sum over the 8192 values of its long coordinate, the other coordinate being the one value of
  a unit axis (`sum_rows`, `sum_cols`); the initial zero is the real zero.  So the result buffer ends at
  `Cert.Chamfer.result gt gen` (`tail_eq`), and the frame run re-posted says so, with the arguments unchanged (`run`).
-/
import proofs.«154279_j43095701848170_1_alg».proof.Proof.Arrays
import Idealize.ShloMosaic.Lib.StableHlo.Run
import Idealize.ShloMosaic.Lib.Pipeline.Value
import Idealize.ShloMosaic.PureOps.Ideal.Laws

noncomputable section

namespace Cert.KernelIdeal.KRun

open Cert.KernelIdeal Cert.KernelIdeal.Gen Cert.KernelIdeal.KValue Cert.KernelIdeal.Arrays
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- The host's sum of every entry of an 8192 × 1 array from the zero: the sum of its 8192 rows' entries. -/
theorem sum_rows (x : FVec Ideal S8192x1 .f32) (i : S_.Idx) :
    Host.reduceAdd (F := Ideal) x (constant (F := Ideal) S_ .f32 0x00000000#32) reducesTo_S8192x1_S_d0_1 h_S_ i
      = ∑ a : Fin 8192, x (ix2 a (0 : Fin 1)) := by
  simp only [Host.reduceAdd, Ideal.hostReduceAdd_def]
  rw [Ideal.hostReduceAdd_total reducesTo_S8192x1_S_d0_1 (fun b => b.elim0)]
  show Ideal.ofBits .f32 0x00000000#32 + _ = _
  rw [Ideal.ofBits_zero_f32, zero_add, sum_idx2]
  exact Finset.sum_congr rfl fun a _ => Fin.sum_univ_one _

/-- The host's sum of every entry of a 1 × 8192 array from the zero: the sum of its 8192 columns' entries. -/
theorem sum_cols (x : FVec Ideal S1x8192 .f32) (i : S_.Idx) :
    Host.reduceAdd (F := Ideal) x (constant (F := Ideal) S_ .f32 0x00000000#32) reducesTo_S1x8192_S_d0_1 h_S_ i
      = ∑ b : Fin 8192, x (ix2 (0 : Fin 1) b) := by
  simp only [Host.reduceAdd, Ideal.hostReduceAdd_def]
  rw [Ideal.hostReduceAdd_total reducesTo_S1x8192_S_d0_1 (fun b => b.elim0)]
  show Ideal.ofBits .f32 0x00000000#32 + _ = _
  rw [Ideal.ofBits_zero_f32, zero_add, sum_idx2]
  exact Fin.sum_univ_one _

/-- The result buffer is no array of the pipeline and is not scoped: the frame run states it through the tail. -/
theorem mem_v5 : main_v5 ∈ Pipeline.restRefs sig (cfgs 0).spec :=
  Pipeline.mem_restRefs_of main_v5 rfl (fun w => by fin_cases w <;> decide)

/-- What the operations after the region leave in the result buffer. -/
theorem tail_eq (c : Dev nD) :
    Pipeline.afterTail₀ cfgs (dats m) 0 (V0 m) [hostOps1] c main_v5 = fun _ => Cert.Chamfer.result (gt m c) (gen m c) := by
  unfold Pipeline.afterTail₀
  show StableHlo.after hostOps1 _ (Proc.devRef .tc main_v5) = _
  after_results
  have e2 : Pipeline.withArrays (cfgs 0).spec c (V0 m c) (fun w => (dats m 0 c).arrAt w (cfgs 0).N) (Proc.devRef .tc main_v0_0)
      = rowArr m c := (Pipeline.withArrays_arr spec0 launch0.win.arr_inj c _ _ 2).trans (final_rows m c)
  have e3 : Pipeline.withArrays (cfgs 0).spec c (V0 m c) (fun w => (dats m 0 c).arrAt w (cfgs 0).N) (Proc.devRef .tc main_v0_1)
      = colArr m c := (Pipeline.withArrays_arr spec0 launch0.win.arr_inj c _ _ 3).trans (final_cols m c)
  rw [e2, e3]
  funext i
  show Ideal.div (Host.reduceAdd (F := Ideal) (rowArr m c) (constant (F := Ideal) S_ .f32 0x00000000#32) reducesTo_S8192x1_S_d0_1 h_S_ i) (Ideal.ofBits .f32 0x46000000#32)
      + Ideal.div (Host.reduceAdd (F := Ideal) (colArr m c) (constant (F := Ideal) S_ .f32 0x00000000#32) reducesTo_S1x8192_S_d0_1 h_S_ i) (Ideal.ofBits .f32 0x46000000#32) = _
  rw [sum_rows, sum_cols]
  rfl

/-- THE KERNEL'S RUN: every weakly fair execution ends with the result buffer at the Chamfer distance of the two
    argument arrays, and the arguments unchanged. -/
theorem run : θ_run defs (onTc (τ := τ) (main (F := Ideal))) ⟨m, fun _ => 0, ρ⟩ fun r => ∀ c : Dev nD,
      r.2.mem ((c.tc : Thread nD τ).loc main_v5) = (fun _ => Cert.Chamfer.result (gt m c) (gen m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v5 mem_v5).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KRun

end
-- ==== Proof.RefValue.lean ====
/-
  The reference is the specification: what the jnp reference computes, read one operation at a time, is
  `Cert.Chamfer.result` of its two argument arrays.

  The 8192 × 8192 matrix before the minima holds at `(i, j)` the clamped squared distance `dist2 i j`: the two row
  sums of squares are the squared norms (the initial zero of each host sum is the real zero), the `dot_general` of
  `gt` with the transpose of `gen` is the inner product, and the broadcasts only place each of them at `(i, j)`.
  The minimum over axis 1 at `i` is then the fold over `j` that `rowMin i` is, the minimum over axis 0 at `j` the
  fold over `i` that `colMin j` is, and each of the two total sums runs over the 8192 one-coordinate indices, which
  are the numbers below 8192.
-/
import proofs.«154279_j43095701848170_1_alg».proof.Proof.Gen.ReferenceIdeal.Read
import proofs.«154279_j43095701848170_1_alg».proof.Proof.Spec
import Idealize.ShloMosaic.Lib.ValueIdx
import Idealize.ShloMosaic.Lib.ValueIdxRank1
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read
open Idealize.ShloMosaic Idealize.ShloMosaic.ValueIdx

/-- The matrix the two minima are taken of holds the clamped squared distance at `(i, j)`. -/
theorem dist_apply (gt gen : (⟨S8192x3, .f32⟩ : BufTy).Contents (Elt Ideal)) (i j : Fin 8192) :
    val_main_v15 (F := Ideal) gt gen (ix2 i j) = Cert.Chamfer.dist2 gt gen i j := by
  have h1 : ∀ k : Fin 3, idx_main_v1 (idx_main_v6 (idx_main_v8 (ix2 i j))) k = ix2 i k := fun k =>
    funext fun a => Fin.ext (by match a with | ⟨0, _⟩ => rfl | ⟨1, _⟩ => rfl)
  have h3 : ∀ k : Fin 3, idx_main_v3 (idx_main_v7 (idx_main_v9 (ix2 i j))) k = ix2 j k := fun k =>
    funext fun a => Fin.ext (by match a with | ⟨0, _⟩ => rfl | ⟨1, _⟩ => rfl)
  have hl : ∀ k : Fin 3, lidx_main_v5 (ix2 i j) k = ix2 i k := fun k =>
    funext fun a => Fin.ext (by match a with | ⟨0, _⟩ => rfl | ⟨1, _⟩ => rfl)
  have hr : ∀ k : Fin 3, idx_main_v4 (ridx_main_v5 (ix2 i j) k) = ix2 j k := fun k =>
    funext fun a => Fin.ext (by match a with | ⟨0, _⟩ => rfl | ⟨1, _⟩ => rfl)
  simp only [val_main_v15_apply, val_main_v13_apply, val_main_v10_apply, val_main_v12_apply, val_main_v8_apply,
    val_main_v9_apply, val_main_v6_apply, val_main_v7_apply, val_main_v1_apply, val_main_v3_apply, val_main_v5_apply,
    val_main_v4_apply, val_main_v0_apply, val_main_v2_apply, val_main_v11_apply, val_main_v14_apply,
    val_main_cst_apply, val_main_cst_0_apply, val_main_cst_1_apply, val_main_cst_2_apply, h1, h3, hl, hr]
  unfold Cert.Chamfer.dist2 Cert.Chamfer.normSq Cert.Chamfer.inner Cert.Chamfer.two Cert.Chamfer.zero
  simp only [Ideal.maximumf_def, Ideal.subf_def, Ideal.addf_def, Ideal.mulf_def, Ideal.ofBits_def,
    Ideal.ofBits_zero_f32, zero_add]

/-- The minimum over axis 1, at `i`: the nearest point of `gen` to point `i` of `gt`. -/
theorem rowMin_apply (gt gen : (⟨S8192x3, .f32⟩ : BufTy).Contents (Elt Ideal)) (i : Fin 8192) :
    val_main_v16 (F := Ideal) gt gen (ix1 i) = Cert.Chamfer.rowMin gt gen i := by
  have hd : ∀ j : Fin 8192, val_main_v15 (F := Ideal) gt gen (ix2 i j) = Cert.Chamfer.dist2 gt gen i j :=
    dist_apply gt gen i
  unfold val_main_v16 Cert.Chamfer.rowMin
  revert hd
  generalize val_main_v15 (F := Ideal) gt gen = y
  intro hd
  have hR : S8192x8192.Reduces [1] S8192 := by decide
  refine (Host.reduce_eq_fold_single (FloatOps.minimumf (F := Ideal) (φ := .f32)) y (val_main_cst_3 (F := Ideal))
    reducesTo_S8192x8192_S8192_d1 hR h_S_ (ix1 i)).trans ?_
  show (Finset.univ : Finset (Fin 8192)).fold min Cert.Chamfer.inf (fun k => y (hR.lift (ix1 i) k)) = _
  refine Finset.fold_congr fun k _ => ?_
  have hk : hR.lift (ix1 i) k = ix2 i k :=
    funext fun c => Fin.ext (by match c with | ⟨0, _⟩ => rfl | ⟨1, _⟩ => rfl)
  rw [hk]
  exact hd k

/-- The minimum over axis 0, at `j`: the nearest point of `gt` to point `j` of `gen`. -/
theorem colMin_apply (gt gen : (⟨S8192x3, .f32⟩ : BufTy).Contents (Elt Ideal)) (j : Fin 8192) :
    val_main_v19 (F := Ideal) gt gen (ix1 j) = Cert.Chamfer.colMin gt gen j := by
  have hd : ∀ i : Fin 8192, val_main_v15 (F := Ideal) gt gen (ix2 i j) = Cert.Chamfer.dist2 gt gen i j :=
    fun i => dist_apply gt gen i j
  unfold val_main_v19 Cert.Chamfer.colMin
  revert hd
  generalize val_main_v15 (F := Ideal) gt gen = y
  intro hd
  have hR : S8192x8192.Reduces [0] S8192 := by decide
  refine (Host.reduce_eq_fold_single (FloatOps.minimumf (F := Ideal) (φ := .f32)) y (val_main_cst_6 (F := Ideal))
    reducesTo_S8192x8192_S8192_d0 hR h_S_ (ix1 j)).trans ?_
  show (Finset.univ : Finset (Fin 8192)).fold min Cert.Chamfer.inf (fun k => y (hR.lift (ix1 j) k)) = _
  refine Finset.fold_congr fun k _ => ?_
  have hk : hR.lift (ix1 j) k = ix2 k j :=
    funext fun c => Fin.ext (by match c with | ⟨0, _⟩ => rfl | ⟨1, _⟩ => rfl)
  rw [hk]
  exact hd k

/-- The reference's result is the Chamfer distance of its arguments. -/
theorem result_eq (gt gen : (⟨S8192x3, .f32⟩ : BufTy).Contents (Elt Ideal)) :
    val_main_v22 (F := Ideal) gt gen = fun _ => Cert.Chamfer.result gt gen := by
  funext i
  have hs1 : ∑ a : S8192.Idx, val_main_v16 (F := Ideal) gt gen a = ∑ a : Fin 8192, Cert.Chamfer.rowMin gt gen a :=
    (Equiv.sum_comp (idxEquiv1 (n := 8192)).symm (val_main_v16 (F := Ideal) gt gen)).symm.trans
      (Finset.sum_congr rfl fun a _ => rowMin_apply gt gen a)
  have hs2 : ∑ a : S8192.Idx, val_main_v19 (F := Ideal) gt gen a = ∑ a : Fin 8192, Cert.Chamfer.colMin gt gen a :=
    (Equiv.sum_comp (idxEquiv1 (n := 8192)).symm (val_main_v19 (F := Ideal) gt gen)).symm.trans
      (Finset.sum_congr rfl fun a _ => colMin_apply gt gen a)
  rw [val_main_v22_apply, val_main_v18_apply, val_main_v21_apply, val_main_v17_apply, val_main_v20_apply,
    val_main_cst_4_apply, val_main_cst_5_apply, val_main_cst_7_apply, val_main_cst_8_apply]
  unfold Cert.Chamfer.result Cert.Chamfer.count
  simp only [Ideal.addf_def, Ideal.hostDivf_def, Ideal.ofBits_def, Ideal.ofBits_zero_f32, zero_add]
  rw [hs1, hs2]

end Cert.ReferenceIdeal.RefValue

end
-- ==== Proof.lean ====
/-
  The certificate: a kernel for the symmetric Chamfer distance of two clouds of 8192 points in three dimensions computes,
  over the extended reals, what its plain reference computes.

  Both programs take the clamped squared distance of every pair of points by the expansion
  `max ((‖a‖² + ‖b‖²) − 2·⟨a, b⟩) 0`, the least of them along each row and along each column, and add the mean of the row
  minima to the mean of the column minima (`Cert.Chamfer.result`, the specification, Proof/Spec.lean).  They differ only
  in arrangement.  The reference forms the whole 8192 × 8192 matrix and reduces it (Proof/RefValue.lean reads it operation
  by operation).  The kernel walks the first cloud in 32 tiles of 256 rows: for each tile it forms the 256 × 8192 tile of
  distances against the whole second cloud (the inner products by a matrix product of narrowed operands, narrowing being
  the identity on extended reals; the second cloud transposed in place), writes the tile's row minima out, and folds the
  tile's column minima into a row it carries from tile to tile — reset at the first tile, updated by `min` at each
  later one, copied out after the last (Proof/Payload.lean the arithmetic at an index, over Proof/LibColumnForms.lean's
  readings of a kept unit axis and of a minimum over one axis; Proof/Pieces.lean what each
  control case of the body leaves, Proof/Acc.lean the recurrence across the grid, Proof/Blocks.lean where the blocks lie,
  Proof/KValue.lean the blocks as values of the specification, Proof/Arrays.lean the two output arrays, Proof/KRun.lean
  the means and the run).  A row's minimum over all columns is the same fold on both sides; a column's minimum over all
  8192 rows is the running minimum of the 32 tiles' minima because `min` is the greatest lower bound
  (`Cert.Chamfer.runMin_eq_fold`); sums are over the same finite sets.  No law used needs the inputs finite, so the
  precondition is never opened.

  The three frames: the kernel's two (as printed, and idealized) are the generated frame certificates; the reference
  has no kernel, and its frame is its run with the result dropped.  The ideal pass rewrote nothing, so `preserves` is
  `True`.
-/
import proofs.«154279_j43095701848170_1_alg».proof.Defs
import proofs.«154279_j43095701848170_1_alg».proof.Proof.Gen.Kernel
import proofs.«154279_j43095701848170_1_alg».proof.Proof.Gen.Kernel.Skeleton
import proofs.«154279_j43095701848170_1_alg».proof.Proof.Gen.Kernel.Launch
import proofs.«154279_j43095701848170_1_alg».proof.Proof.Gen.Kernel.Points
import proofs.«154279_j43095701848170_1_alg».proof.Proof.Gen.Kernel.Frame
import proofs.«154279_j43095701848170_1_alg».proof.Proof.Gen.KernelIdeal
import proofs.«154279_j43095701848170_1_alg».proof.Proof.Gen.KernelIdeal.Skeleton
import proofs.«154279_j43095701848170_1_alg».proof.Proof.Gen.KernelIdeal.Launch
import proofs.«154279_j43095701848170_1_alg».proof.Proof.Gen.KernelIdeal.Points
import proofs.«154279_j43095701848170_1_alg».proof.Proof.Gen.KernelIdeal.Frame
import proofs.«154279_j43095701848170_1_alg».proof.Proof.Gen.ReferenceIdeal
import proofs.«154279_j43095701848170_1_alg».proof.Proof.Gen.Pre_finite_inputs
import proofs.«154279_j43095701848170_1_alg».proof.Proof.Gen.ReferenceIdeal.Run
import proofs.«154279_j43095701848170_1_alg».proof.Proof.Gen.ReferenceIdeal.Read
import proofs.«154279_j43095701848170_1_alg».proof.Proof.KRun
import proofs.«154279_j43095701848170_1_alg».proof.Proof.RefValue
import Idealize.ShloMosaic.Adequacy
import Idealize.ShloMosaic.Init

noncomputable section

namespace Cert.Proof

open Idealize.ShloMosaic Idealize.SL.Sem

/-- The kernel as printed runs to the end without a fault and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization is the kernel's own text read at the ideal instance: nothing was rewritten. -/
theorem preserves : Cert.preserves_Kernel_KernelIdeal := trivial

/-- From memories that agree on the two clouds both programs end, the kernel's result buffer at the Chamfer distance
    of its arguments (`KRun.run`) and the reference's at the Chamfer distance of its own (`RefValue.result_eq`), which
    are the same two arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Cert.Chamfer.result (Cert.KernelIdeal.KValue.gt m c) (Cert.KernelIdeal.KValue.gen m c),
    Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
